-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4x8192 : Shape := ⟨2, ![4, 8192]⟩
abbrev S_ : Shape := ⟨0, ![]⟩

class Facts : Prop where

variable [Facts]

def fn {F : FTy → Type} [FloatOps F] (main_arg0 : IVec S4x8192 32) : IVec S_ 1 :=
  let main_c : IVec S_ 1 := constantI S_ 1 1#1
  main_c
-- ==== Kernel.lean ====
abbrev S4x8192 : Shape := ⟨2, ![4, 8192]⟩
abbrev S_ : Shape := ⟨0, ![]⟩
abbrev S4x8193 : Shape := ⟨2, ![4, 8193]⟩
abbrev S4x8704 : Shape := ⟨2, ![4, 8704]⟩
abbrev S4x8704x1 : Shape := ⟨3, ![4, 8704, 1]⟩
abbrev S4x8193x2048 : Shape := ⟨3, ![4, 8193, 2048]⟩
abbrev S1x512x1 : Shape := ⟨3, ![1, 512, 1]⟩
abbrev S1x512x2048 : Shape := ⟨3, ![1, 512, 2048]⟩
abbrev S512x1 : Shape := ⟨2, ![512, 1]⟩
abbrev S512x2048 : Shape := ⟨2, ![512, 2048]⟩

abbrev nBuf : Space → Nat
  | .hbm => 9
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S_, .i32⟩
  | .hbm, ⟨2, _⟩ => ⟨S_, .i32⟩
  | .hbm, ⟨3, _⟩ => ⟨S4x8193, .i32⟩
  | .hbm, ⟨4, _⟩ => ⟨S_, .i32⟩
  | .hbm, ⟨5, _⟩ => ⟨S_, .i32⟩
  | .hbm, ⟨6, _⟩ => ⟨S4x8704, .i32⟩
  | .hbm, ⟨7, _⟩ => ⟨S4x8704x1, .i32⟩
  | .hbm, ⟨8, _⟩ => ⟨S4x8193x2048, .f32⟩
  | .local _ .vmem, ⟨0, _⟩ => ⟨S1x512x1, .i32⟩
  | .local _ .vmem, ⟨1, _⟩ => ⟨S1x512x1, .i32⟩
  | .local _ .vmem, ⟨2, _⟩ => ⟨S1x512x2048, .f32⟩
  | .local _ .vmem, ⟨3, _⟩ => ⟨S1x512x2048, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_c_0 : Ref sig .tc := ⟨.hbm, 4, rfl⟩
abbrev main_call1_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S4x8192_S4x8193_000_100 : S4x8192.Pads (![0, 1] : Fin 2 → Nat) ![0, 0] ![0, 0] S4x8193
  h_S_ : 0 < S_.numel
  pads_S4x8193_S4x8704_000_05110 : S4x8193.Pads (![0, 0] : Fin 2 → Nat) ![0, 511] ![0, 0] S4x8704
  shapeCasts_S4x8704_S4x8704x1 : S4x8704.ShapeCasts S4x8704x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S512x2048_d1_w32 : S512x2048.Iotas .tc 32 [1]
  broadcasts_S512x1_S512x2048 : S512x1.Broadcasts S512x2048
  natLt_1_32 : 1 < 32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S4x8704x1.size a
  hwx0_0 : ∀ i : grid0.Coords, EltTy.bits .i32 = 32 ∨ (Rect.block (s := S4x8704x1) S1x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x512x2048.size a < S4x8193x2048.size a
  hwx0_1 : ∀ i : grid0.Coords, EltTy.bits .f32 = 32 ∨ (Rect.unit (s := S4x8193x2048) (fun a => cc0_transform_1 i a * S1x512x2048.size a) (fun a => (Pipeline.Clip.of (cc0_transform_1 i a) (S1x512x2048.size a) (S4x8193x2048.size a)).extent (S1x512x2048.size a)) fun a => Pipeline.Clip.inb (Pipeline.Clip.ok_of (hstart0_1 i a))).WholeWords (EltTy.packing .f32)
  hwxs0_1 : ∀ i : grid0.Coords, EltTy.bits .f32 = 32 ∨ (Rect.unit (s := S1x512x2048) (fun _ => 0) (fun a => (Pipeline.Clip.of (cc0_transform_1 i a) (S1x512x2048.size a) (S4x8193x2048.size a)).extent (S1x512x2048.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v2) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v3) S1x512x2048.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8192 : Shape := ⟨2, ![4, 8192]⟩
abbrev S_ : Shape := ⟨0, ![]⟩
abbrev S4x8193 : Shape := ⟨2, ![4, 8193]⟩
abbrev S4x8193x1 : Shape := ⟨3, ![4, 8193, 1]⟩
abbrev S1x1x2048 : Shape := ⟨3, ![1, 1, 2048]⟩
abbrev S4x8193x2048 : Shape := ⟨3, ![4, 8193, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S_, .i32⟩
  | .hbm, ⟨2, _⟩ => ⟨S_, .i32⟩
  | .hbm, ⟨3, _⟩ => ⟨S4x8193, .i32⟩
  | .hbm, ⟨4, _⟩ => ⟨S4x8193x1, .i32⟩
  | .hbm, ⟨5, _⟩ => ⟨S1x1x2048, .i32⟩
  | .hbm, ⟨6, _⟩ => ⟨S4x8193x2048, .i32⟩
  | .hbm, ⟨7, _⟩ => ⟨S4x8193x2048, .i32⟩
  | .hbm, ⟨8, _⟩ => ⟨S4x8193x2048, .i1⟩
  | .hbm, ⟨9, _⟩ => ⟨S4x8193x2048, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_v0 : Ref sig .tc := ⟨.hbm, 4, rfl⟩
abbrev main_call1_v1 : Ref sig .tc := ⟨.hbm, 5, rfl⟩
abbrev main_call1_v2 : Ref sig .tc := ⟨.hbm, 6, rfl⟩
abbrev main_call1_v3 : Ref sig .tc := ⟨.hbm, 7, rfl⟩
abbrev main_call1_v4 : Ref sig .tc := ⟨.hbm, 8, rfl⟩
abbrev main_v1 : Ref sig .tc := ⟨.hbm, 9, rfl⟩

abbrev nD : Nat := 1
abbrev τ : Topo := Topo.v7x

variable {F : FTy → Type} [FloatOps F]

class Facts₀ : Prop where
  pads_S4x8192_S4x8193_000_100 : S4x8192.Pads (![0, 1] : Fin 2 → Nat) ![0, 0] ![0, 0] S4x8193
  h_S_ : 0 < S_.numel
  bcast_S4x8193_S4x8193x1_0_1 : S4x8193.BroadcastsInDim S4x8193x1 (![0, 1] : Fin 2 → Fin S4x8193x1.rank)
  bcast_S4x8193x1_S4x8193x2048_0_1_2 : S4x8193x1.BroadcastsInDim S4x8193x2048 (![0, 1, 2] : Fin 3 → Fin S4x8193x2048.rank)
  bcast_S1x1x2048_S4x8193x2048_0_1_2 : S1x1x2048.BroadcastsInDim S4x8193x2048 (![0, 1, 2] : Fin 3 → Fin S4x8193x2048.rank)

variable [Facts₀]

class Facts : Prop extends Facts₀ where

variable [Facts]
-- ==== Proof.OneHot.lean ====
/-
  The one-hot encoding as ONE function of the token ids, index by index.

  Both programs first put a zero in front of every row of the 4 x 8192 token ids (the begin-of-sequence token), giving
  a 4 x 8193 array `p`. The result, of shape 4 x 8193 x 2048, holds at `(b, s, d)` the float of the bit
  "the id at `(b, s)` equals `d`" — `1` when the 32-bit words are equal, `0` otherwise; an id outside `0 ‥ 2047`
  gives a row of zeros. The bit is converted UNSIGNED, so its value is `0` or `1` whatever the float instance.
-/
import Idealize.ShloMosaic.PureOps.Ideal
import Idealize.ShloMosaic.Lib.ValueIdx

noncomputable section

namespace Cert.OneHot

open Idealize.ShloMosaic Idealize.ShloMosaic.ValueIdx

/-- The padded ids: one row of 8193 positions per batch entry. -/
abbrev Ids : Shape := ⟨2, ![4, 8193]⟩
/-- The encoding: 2048 classes per position. -/
abbrev Out : Shape := ⟨3, ![4, 8193, 2048]⟩

variable {F : FTy → Type} [FloatOps F]

/-- The (batch, position) pair an entry of the encoding belongs to. -/
abbrev pos (i : Out.Idx) : Ids.Idx := ix2 (i 0) (i 1)

/-- The encoding of the padded ids `p`: entry `(b, s, d)` is the bit `p (b, s) = d` as a float. -/
def oneHot (p : IVec Ids 32) : FVec F Out .f32 :=
  fun i => FloatOps.uitofp .f32 (IntOp.cmpi .eq (p (pos i)) (BitVec.ofNat 32 (i 2).val))

theorem oneHot_apply (p : IVec Ids 32) (i : Out.Idx) :
    oneHot (F := F) p i = FloatOps.uitofp .f32 (IntOp.cmpi .eq (p (pos i)) (BitVec.ofNat 32 (i 2).val)) := rfl

end Cert.OneHot

end
-- ==== Proof.RefSide.lean ====
/-
  The reference computes the one-hot encoding of the padded ids.

  Its last stage converts the bit of a word compare; the left word is the padded ids broadcast along the class axis
  (through a unit axis: `(b, s, d) ↦ (b, s, 0) ↦ (b, s)`), the right word the class number `d` broadcast along batch
  and position (`(b, s, d) ↦ (0, 0, d)`). Read at an index, stage by stage, that is the specification's entry.
-/
import proofs.«112966_g4715874091103_cont_8to1_c_864_7_alg».proof.Proof.Gen.ReferenceIdeal.Read
import proofs.«112966_g4715874091103_cont_8to1_c_864_7_alg».proof.Proof.OneHot

noncomputable section

namespace Cert.ReferenceIdeal.RefValue

open Cert.ReferenceIdeal Cert.ReferenceIdeal.Read Idealize.ShloMosaic Idealize.ShloMosaic.ValueIdx

variable {F : FTy → Type} [FloatOps F]

/-- The two broadcasts on the ids' side read position `(b, s)` at every class. -/
theorem idx_ids (i : S4x8193x2048.Idx) : idx_main_call1_v0 (idx_main_call1_v2 i) = Cert.OneHot.pos i :=
  funext fun a => Fin.ext (by match a with | ⟨0, _⟩ => rfl | ⟨1, _⟩ => rfl)

/-- The reference's result is the one-hot encoding of its padded ids. -/
theorem result_eq (x0 : IVec S4x8192 32) :
    val_main_v1 (F := F) x0 = Cert.OneHot.oneHot (F := F) (val_main_v0 (F := F) x0) := by
  funext i
  rw [val_main_v1_apply, val_main_call1_v4_apply, val_main_call1_v2_apply, val_main_call1_v0_apply,
    val_main_call1_v3_apply, val_main_call1_v1_apply, idx_ids, Cert.OneHot.oneHot_apply]

end Cert.ReferenceIdeal.RefValue

end
-- ==== Proof.Payload.lean ====
/-
  What the kernel body stores, at an entry of its 1 x 512 x 2048 block.

  The body loads a column of 512 ids (a 1 x 512 x 1 block), copies it along the 2048 lanes, compares it word for word with
  the lane number, widens the bit to a 32-bit word and converts that word as a SIGNED integer. A bit widened with zeros
  is the number 0 or 1, so the signed conversion is the unsigned conversion of the bit itself: entry `(0, r, d)` is the
  float of the bit "the id in row `r` equals `d`".
-/
import proofs.«112966_g4715874091103_cont_8to1_c_864_7_alg».proof.Proof.Gen.KernelIdeal.Skeleton
import Idealize.ShloMosaic.Lib.KernelVsHost
import Idealize.ShloMosaic.Lib.ValueLayout

noncomputable section

namespace Cert.KernelIdeal.Body

open Cert.KernelIdeal Cert.KernelIdeal.Gen Idealize.ShloMosaic Idealize.ShloMosaic.ValueIdx

/-- The column of ids copied along the lanes reads row `r` of the column at every lane. -/
theorem ids_bcast (v : IVec S512x1 32) (r : Fin 512) (d : Fin 2048) :
    broadcastTo S512x2048 v broadcasts_S512x1_S512x2048 (ix2 r d) = v (ix2 r (0 : Fin 1)) :=
  broadcastTo_apply v _ (ix2 r d) (ix2 r (0 : Fin 1)) (fun a => match a with
    | ⟨0, _⟩ => by show r.val = if (512 : Nat) = 1 then 0 else r.val; rw [if_neg (by decide)]
    | ⟨1, _⟩ => by show 0 = if (1 : Nat) = 1 then 0 else d.val; rw [if_pos rfl])

/-- The stored block at `(0, r, d)`: the bit "row `r`'s id is `d`", as a float. -/
theorem pay_apply (x0 : IVec S1x512x1 32) (u : Fin 1) (r : Fin 512) (d : Fin 2048) :
    k0_pay1 (F := Ideal) x0 (ix3 u r d)
      = FloatOps.uitofp .f32 (IntOp.cmpi .eq (x0 (ix3 (0 : Fin 1) r (0 : Fin 1))) (BitVec.ofNat 32 d.val)) := by
  unfold k0_pay1
  dsimp only
  rw [shapeCast_ab_1ab_apply, sitofp_extui_eq_uitofp]
  show FloatOps.uitofp .f32 (IntOp.cmpi .eq (broadcastTo S512x2048 (shapeCast S512x1 x0 shapeCasts_S1x512x1_S512x1) broadcasts_S512x1_S512x2048 (ix2 r d))
    (iota .tc S512x2048 32 [1] iota_S512x2048_d1_w32 (ix2 r d))) = _
  rw [ids_bcast, shapeCast_1ab_ab_apply, iota_single_apply]

end Cert.KernelIdeal.Body

end
-- ==== Proof.KernelSide.lean ====
/-
  The kernel's result array is the one-hot encoding of the padded ids.

  The grid has 4 x 17 points. Point `(b, k)` fetches rows `512·k ‥ 512·k + 511` of batch entry `b` of the id column
  (4 x 8704 x 1: the padded ids, filled out to 17 whole blocks with the word `-1`) and writes back rows
  `512·k ‥` of batch entry `b` of the 4 x 8193 x 2048 result — 512 rows for `k < 16`, and for `k = 16` only row 8192,
  the one row of that block inside the array. Inside the array the id column IS the padded ids (the filling rows
  `8193 ‥ 8703` are never written back), so what each point writes back is its block of ONE function of the ids,
  the one-hot encoding; the blocks cover the array (row `s` is in block `s / 512`), which therefore ends holding it.
-/
import proofs.«112966_g4715874091103_cont_8to1_c_864_7_alg».proof.Proof.Gen.KernelIdeal.Value
import proofs.«112966_g4715874091103_cont_8to1_c_864_7_alg».proof.Proof.Payload
import proofs.«112966_g4715874091103_cont_8to1_c_864_7_alg».proof.Proof.OneHot
import Idealize.ShloMosaic.Lib.StableHlo.Run

noncomputable section

namespace Cert.KernelIdeal.Encode

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The id column the region finds -/

/-- The ids with the begin-of-sequence zero in front of every row. -/
def padded (x : IVec S4x8192 32) : IVec S4x8193 32 :=
  pad S4x8193 ![0, 1] ![0, 0] ![0, 0] x (id (constantI S_ 32 0#32)) pads_S4x8192_S4x8193_000_100 h_S_

/-- The id column as the region finds it: the padded ids, filled out with `-1` to 8704 rows, as a column. -/
theorem V_ids (c : Dev nD) : (V m c main_v2 : S4x8704x1.Idx → BitVec 32)
    = shapeCast S4x8704x1 (pad S4x8704 ![0, 0] ![0, 511] ![0, 0] (padded (m ((c : Thread nD τ).loc main_arg0)))
        (id (constantI S_ 32 4294967295#32)) pads_S4x8193_S4x8704_000_05110 h_S_) shapeCasts_S4x8704_S4x8704x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- A row of the column inside the result's 8193 rows holds the padded id of that row. -/
theorem ids_apply (c : Dev nD) (b : Fin 4) (s : Fin 8704) (u : Fin 1) (hs : s.val < 8193) :
    V m c main_v2 (ix3 b s u) = padded (m ((c : Thread nD τ).loc main_arg0)) (ix2 b ⟨s.val, hs⟩) := by
  rw [V_ids]
  refine (shapeCast_apply _ _ (ix3 b s u) (ix2 b s) ?_).trans ?_
  · have hu : u.val = 0 := by omega
    rw [Shape.rowMajor_val_two, Shape.rowMajor_val_three]
    show b.val * 8704 + s.val = (b.val * 8704 + s.val) * 1 + u.val
    omega
  · exact pad_apply_of_inside _ _ _ _ _ _ _ (ix2 b s) (ix2 b ⟨s.val, hs⟩) (fun a => match a with
      | ⟨0, _⟩ => by show b.val = 0 + b.val * (0 + 1); omega
      | ⟨1, _⟩ => by show s.val = 0 + s.val * (0 + 1); omega)

/-! ## What a point writes back -/

theorem hz : (![0, 0, 0] : Fin 3 → Nat) = fun _ => 0 := funext fun a => by fin_cases a <;> rfl

/-- The body stores one piece, the whole block: the buffer ends holding the payload of the loaded column. -/
theorem out_eq (x0 : Vec Ideal S1x512x1 .i32) : out0_1 x0 = k0_pay1 x0 := by
  unfold out0_1
  rw [View.canon_unit_zero hz]
  simp only [View.ld_unit_zero (S := S1x512x1) hz]

/-- The printed index maps and the cuts at the array's end, decided over the 68 points: both windows' block index at
    point `(b, k)` is `(b, k, 0)`; the result's transfer is the whole block but for `k = 16`, where it is one row. -/
theorem idx_facts : ∀ t : Fin cfg0.N,
    win0_0.index t (0 : Fin 3) = win0_1.index t (0 : Fin 3) ∧ win0_0.index t (1 : Fin 3) = win0_1.index t (1 : Fin 3)
    ∧ win0_0.index t (2 : Fin 3) = 0 ∧ win0_1.index t (2 : Fin 3) = 0
    ∧ win0_1.index t (0 : Fin 3) < 4 ∧ win0_1.index t (1 : Fin 3) < 17
    ∧ win0_1.xsize (grid0.coords t) (0 : Fin 3) = 1 ∧ win0_1.xsize (grid0.coords t) (2 : Fin 3) = 2048
    ∧ (win0_1.index t (1 : Fin 3) < 16 → win0_1.xsize (grid0.coords t) (1 : Fin 3) = 512)
    ∧ (win0_1.index t (1 : Fin 3) = 16 → win0_1.xsize (grid0.coords t) (1 : Fin 3) = 1) :=
  (by decide +kernel : ∀ t : Fin grid0.N, _)

/-- Every block index `(b, k, 0)` is some point's. -/
theorem idx_onto : ∀ (q0 : Fin 4) (q1 : Fin 17), ∃ t : Fin cfg0.N, win0_1.index t = ![q0.val, q1.val, 0] :=
  (by decide +kernel : ∀ (q0 : Fin 4) (q1 : Fin 17), ∃ t : Fin grid0.N, win0_1.index t = ![q0.val, q1.val, 0])

/-- The encoding the array is shown to hold: of the padded launch ids. -/
abbrev target (c : Dev nD) : FVec Ideal S4x8193x2048 .f32 :=
  Cert.OneHot.oneHot (F := Ideal) (padded (m ((c : Thread nD τ).loc main_arg0)))

/-- The stored block at any of its entries `y`: the bit "row `y 1`'s id is `y 2`", as a float. -/
theorem blk_apply (X : IVec S1x512x1 32) (y : S1x512x2048.Idx) :
    k0_pay1 (F := Ideal) X y
      = FloatOps.uitofp .f32 (IntOp.cmpi .eq (X (ix3 (0 : Fin 1) (y 1) (0 : Fin 1))) (BitVec.ofNat 32 (y 2).val)) := by
  rw [eq_ix3 y]
  exact Cert.KernelIdeal.Body.pay_apply X (y 0) (y 1) (y 2)

/-- WHAT POINT `t` WRITES BACK is its block of the encoding. -/
theorem flushed_eq (c : Dev nD) (t : Fin cfg0.N) :
    (dats m 0 c).flushed 1 t = ((cfg0.win 1).blk t).view.read (Elt Ideal) (target m c) := by
  rw [Value.flushed1, out_eq]
  obtain ⟨e0, e1, e2, e3, e4, e5, x0, x2, x1a, x1b⟩ := idx_facts t
  funext j
  have hj0 : (j 0).val < win0_1.xsize (grid0.coords t) (0 : Fin 3) := (j 0).isLt
  have hj1 : (j 1).val < win0_1.xsize (grid0.coords t) (1 : Fin 3) := (j 1).isLt
  have hj2 : (j 2).val < win0_1.xsize (grid0.coords t) (2 : Fin 3) := (j 2).isLt
  -- the row written lies inside the array: a whole block below block 16, and block 16's one row is row 8192
  have hrow : win0_1.index t (1 : Fin 3) * 512 + (j 1).val < 8193 := by
    rcases Nat.lt_or_ge (win0_1.index t (1 : Fin 3)) 16 with h | h
    · have := x1a h; omega
    · have := x1b (by omega); omega
  show k0_pay1 (F := Ideal) (iblk m c 0 t) ((cfg0.win 1).xinj (grid0.coords t) j) = target m c (((cfg0.win 1).blk t).view.emb j)
  refine (blk_apply (iblk m c 0 t) _).trans ?_
  -- the id the body compared: the column's entry in the block's row, which is the padded id of the array's row
  have hid : iblk m c 0 t (ix3 (0 : Fin 1) ((cfg0.win 1).xinj (grid0.coords t) j 1) (0 : Fin 1))
      = padded (m ((c : Thread nD τ).loc main_arg0)) (Cert.OneHot.pos (((cfg0.win 1).blk t).view.emb j)) := by
    show V m c main_v2 (((cfg0.win 0).blk t).view.emb (ix3 (0 : Fin 1) ((cfg0.win 1).xinj (grid0.coords t) j 1) (0 : Fin 1))) = _
    have hemb : ((cfg0.win 0).blk t).view.emb (ix3 (0 : Fin 1) ((cfg0.win 1).xinj (grid0.coords t) j 1) (0 : Fin 1))
        = ix3 (⟨win0_1.index t (0 : Fin 3), e4⟩ : Fin 4) (⟨win0_1.index t (1 : Fin 3) * 512 + (j 1).val, by omega⟩ : Fin 8704) (0 : Fin 1) := by
      funext a; apply Fin.ext
      match a with
      | ⟨0, _⟩ => show win0_0.index t (0 : Fin 3) * 1 + 1 * 0 = win0_1.index t (0 : Fin 3); omega
      | ⟨1, _⟩ => show win0_0.index t (1 : Fin 3) * 512 + 1 * (j 1).val = win0_1.index t (1 : Fin 3) * 512 + (j 1).val; omega
      | ⟨2, _⟩ => show win0_0.index t (2 : Fin 3) * 1 + 1 * 0 = 0; omega
    rw [hemb, ids_apply m c _ _ _ hrow]
    refine congrArg (padded (m ((c : Thread nD τ).loc main_arg0))) (funext fun a => Fin.ext ?_)
    match a with
    | ⟨0, _⟩ => show win0_1.index t (0 : Fin 3) = win0_1.index t (0 : Fin 3) * 1 + 1 * (j 0).val; omega
    | ⟨1, _⟩ => show win0_1.index t (1 : Fin 3) * 512 + (j 1).val = win0_1.index t (1 : Fin 3) * 512 + 1 * (j 1).val; omega
  rw [hid]
  -- the lane number is the class: the block spans all 2048 classes
  have hcls : ((cfg0.win 1).xinj (grid0.coords t) j 2).val = ((((cfg0.win 1).blk t).view.emb j) 2).val := by
    show (j 2).val = win0_1.index t (2 : Fin 3) * 2048 + 1 * (j 2).val
    omega
  rw [hcls]
  rfl

/-! ## The blocks cover the array -/

/-- An entry of the array is in point `t`'s block iff each coordinate is in the block's range, cut at the array's end. -/
theorem mem_blk (t : Fin cfg0.N) (i : S4x8193x2048.Idx) :
    i ∈ ((cfg0.win 1).blk t).view.set ↔ ∀ a : Fin 3, win0_1.index t a * S1x512x2048.size a ≤ (i a).val
      ∧ (i a).val < win0_1.index t a * S1x512x2048.size a + win0_1.xsize (grid0.coords t) a := by
  show i ∈ ((View.whole main_v3).slice (win0_1.rect t)).set ↔ _
  rw [View.set_slice_whole, Rect.mem_set_unit]
  exact Iff.rfl

/-- Entry `(b, s, d)` is in the block of point `(b, s / 512)`: rows `0 ‥ 8191` in a whole block, row 8192 in the cut one. -/
theorem cover (i : S4x8193x2048.Idx) :
    ∃ t : Fin cfg0.N, (cfg0.win 1).flush t = true ∧ i ∈ ((cfg0.win 1).blk t).view.set := by
  have hi0 : (i 0).val < 4 := (i 0).isLt
  have hi1 : (i 1).val < 8193 := (i 1).isLt
  have hi2 : (i 2).val < 2048 := (i 2).isLt
  obtain ⟨t, ht⟩ := idx_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  obtain ⟨e0, e1, e2, e3, e4, e5, x0, x2, x1a, x1b⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + win0_1.xsize (grid0.coords t) (0 : Fin 3)
    omega
  | ⟨1, _⟩ =>
    show win0_1.index t (1 : Fin 3) * 512 ≤ (i 1).val ∧ (i 1).val < win0_1.index t (1 : Fin 3) * 512 + win0_1.xsize (grid0.coords t) (1 : Fin 3)
    rcases Nat.lt_or_ge (win0_1.index t (1 : Fin 3)) 16 with h | h
    · have := x1a h; omega
    · have := x1b (by omega); omega
  | ⟨2, _⟩ =>
    show win0_1.index t (2 : Fin 3) * 2048 ≤ (i 2).val ∧ (i 2).val < win0_1.index t (2 : Fin 3) * 2048 + win0_1.xsize (grid0.coords t) (2 : Fin 3)
    omega

/-! ## The array after the run -/

/-- The result array ends holding the one-hot encoding of the padded launch ids. -/
theorem final (c : Dev nD) : (dats m 0 c).arrAt 1 cfg0.N = target m c :=
  (dats m 0 c).arrAt_eq_of_cover 1 (target m c) (fun t _ => flushed_eq m c t) cover

/-- The kernel's run: every weakly fair execution ends with the result at the encoding and the ids as launched. -/
theorem run : θ_run defs (onTc (τ := τ) (main (F := Ideal))) ⟨m, fun _ => 0, ρ⟩ fun r => ∀ c : Dev nD,
      r.2.mem ((c : Thread nD τ).loc main_v3) = target m c
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Encode

end
-- ==== Proof.lean ====
/-
  The kernel and the reference both compute the one-hot encoding, in 2048 classes, of the token ids with a zero put in
  front of every row: entry `(b, s, d)` of the 4 x 8193 x 2048 result is `1` when the padded id at `(b, s)` is the word
  `d` and `0` otherwise (Proof/OneHot.lean).

  The reference compares the padded ids, broadcast along the classes, with the class numbers, and converts the bit
  (Proof/RefSide.lean). The kernel works on 4 x 17 blocks of 512 rows of an id column filled out to 8704 rows; each
  point compares its 512 ids with the lane numbers and writes its block back, the last block of every batch entry cut
  to the one row inside the array; the bit is widened to a word and converted signed, which for a bit is the unsigned
  conversion (Proof/Payload.lean), and the blocks cover the array (Proof/KernelSide.lean). No law of the extended reals
  is needed: the two results are the same conversion of the same bit, for every 32-bit id.

  The claim's `preserves` conjunct is `True`. The frames are the generated frame certificates; the reference's is its
  generated run with the result dropped.
-/
import proofs.«112966_g4715874091103_cont_8to1_c_864_7_alg».proof.Defs
import proofs.«112966_g4715874091103_cont_8to1_c_864_7_alg».proof.Proof.Gen.Kernel
import proofs.«112966_g4715874091103_cont_8to1_c_864_7_alg».proof.Proof.Gen.Kernel.Skeleton
import proofs.«112966_g4715874091103_cont_8to1_c_864_7_alg».proof.Proof.Gen.Kernel.Launch
import proofs.«112966_g4715874091103_cont_8to1_c_864_7_alg».proof.Proof.Gen.Kernel.Points
import proofs.«112966_g4715874091103_cont_8to1_c_864_7_alg».proof.Proof.Gen.Kernel.Frame
import proofs.«112966_g4715874091103_cont_8to1_c_864_7_alg».proof.Proof.Gen.KernelIdeal
import proofs.«112966_g4715874091103_cont_8to1_c_864_7_alg».proof.Proof.Gen.KernelIdeal.Skeleton
import proofs.«112966_g4715874091103_cont_8to1_c_864_7_alg».proof.Proof.Gen.KernelIdeal.Launch
import proofs.«112966_g4715874091103_cont_8to1_c_864_7_alg».proof.Proof.Gen.KernelIdeal.Points
import proofs.«112966_g4715874091103_cont_8to1_c_864_7_alg».proof.Proof.Gen.KernelIdeal.Frame
import proofs.«112966_g4715874091103_cont_8to1_c_864_7_alg».proof.Proof.Gen.ReferenceIdeal
import proofs.«112966_g4715874091103_cont_8to1_c_864_7_alg».proof.Proof.Gen.Pre_any_inputs
import proofs.«112966_g4715874091103_cont_8to1_c_864_7_alg».proof.Proof.Gen.KernelIdeal.Value
import proofs.«112966_g4715874091103_cont_8to1_c_864_7_alg».proof.Proof.Gen.ReferenceIdeal.Run
import proofs.«112966_g4715874091103_cont_8to1_c_864_7_alg».proof.Proof.Gen.ReferenceIdeal.Read
import proofs.«112966_g4715874091103_cont_8to1_c_864_7_alg».proof.Proof.RefSide
import proofs.«112966_g4715874091103_cont_8to1_c_864_7_alg».proof.Proof.KernelSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the one-hot encoding of the padded ids: the kernel's array by its blocks, the reference's
    by its stages; the two paddings are the same operation on ids that agree. -/
theorem algebraic : Cert.algebraic_KernelIdeal_ReferenceIdeal := by
  intro m ρ m' ρ' _ hagree
  refine ⟨fun c => Cert.KernelIdeal.Encode.target m c, Cert.KernelIdeal.Encode.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, hagree c]
  rfl

theorem claim : Cert.Claim := ⟨Cert.Kernel.Gen.facts, Cert.KernelIdeal.Gen.facts, Cert.ReferenceIdeal.Gen.facts, Cert.Pre_any_inputs.Gen.facts,
  frame_kernel, frame_kernelIdeal, frame_referenceIdeal, trivial, algebraic⟩

end Cert.Proof

end
